-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S512x512 : Shape := ⟨2, ![512, 512]⟩
abbrev S512 : Shape := ⟨1, ![512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8x8192x512 .f32) (main_arg1 : FVec F S8x8192x512 .f32) (main_arg2 : FVec F S8x8192x512 .f32) (main_arg3 : FVec F S512x512 .f32) (main_arg4 : FVec F S512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S8x8192x512 .f32 := Host.absf main_arg2
  let main_cst_2 : FVec F S_ .f32 := constant S_ .f32 0x7F800000#32
  let main_v10 : FVec F S8x8192x512 .f32 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S8x8192x512 : Shape := ⟨3, ![8, 8192, 512]⟩
abbrev S512x512 : Shape := ⟨2, ![512, 512]⟩
abbrev S512 : Shape := ⟨1, ![512]⟩
abbrev S8x1x512 : Shape := ⟨3, ![8, 1, 512]⟩
abbrev S1x1024x512 : Shape := ⟨3, ![1, 1024, 512]⟩
abbrev S1x1x512 : Shape := ⟨3, ![1, 1, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S512x512, .f32⟩
  | .hbm, ⟨4, _⟩ => ⟨S512, .f32⟩
  | .hbm, ⟨5, _⟩ => ⟨S8x1x512, .f32⟩
  | .hbm, ⟨6, _⟩ => ⟨S512x512, .bf16⟩
  | .hbm, ⟨7, _⟩ => ⟨S8x8192x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S1x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1x512, .f32⟩
  | .local _ .vmem, ⟨10, _⟩ => ⟨S1x1x512, .f32⟩
  | .local _ .vmem, ⟨11, _⟩ => ⟨S512x512, .bf16⟩
  | .local _ .vmem, ⟨12, _⟩ => ⟨S512, .f32⟩
  | .local _ .vmem, ⟨13, _⟩ => ⟨S1x1024x512, .f32⟩
  | .local _ .vmem, ⟨14, _⟩ => ⟨S1x1024x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_11 : BitVec 32 := 0#32
  let v23 : BitVec 1 := Scalar.cmpi .ne v22 c0_i32_11
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  reduces_S1024x512_S512 : S1024x512.Reduces [0] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  bitsLt_bf16_f32 : FTy.bits .bf16 < FTy.bits .f32
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S1024x512_S1x1024x512 : S1024x512.ShapeCasts S1x1024x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x8192x512.size a
  hwx0_0 : ∀ i : grid0.Coords, EltTy.bits .f32 = 32 ∨ (Rect.block (s := S8x8192x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x8192x512.size a
  hwx0_1 : ∀ i : grid0.Coords, EltTy.bits .f32 = 32 ∨ (Rect.block (s := S8x8192x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x8192x512.size a
  hwx1_0 : ∀ i : grid1.Coords, EltTy.bits .f32 = 32 ∨ (Rect.block (s := S8x8192x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S8x1x512.size a
  hwx1_1 : ∀ i : grid1.Coords, EltTy.bits .f32 = 32 ∨ (Rect.block (s := S8x1x512) S1x1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x512.size a ≤ S8x8192x512.size a
  hwx1_4 : ∀ i : grid1.Coords, EltTy.bits .f32 = 32 ∨ (Rect.block (s := S8x8192x512) S1x1024x512.size (cc1_transform_4 i) (hinb1_4 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x8192x512 : Shape := ⟨3, ![8, 8192, 512]⟩
abbrev S512x512 : Shape := ⟨2, ![512, 512]⟩
abbrev S512 : Shape := ⟨1, ![512]⟩
abbrev S_ : Shape := ⟨0, ![]⟩
abbrev S8x8192 : Shape := ⟨2, ![8, 8192]⟩
abbrev S8x8192x1 : Shape := ⟨3, ![8, 8192, 1]⟩
abbrev S8x512 : Shape := ⟨2, ![8, 512]⟩
abbrev S8x1x512 : Shape := ⟨3, ![8, 1, 512]⟩
abbrev S1x1x512 : Shape := ⟨3, ![1, 1, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S512x512, .f32⟩
  | .hbm, ⟨4, _⟩ => ⟨S512, .f32⟩
  | .hbm, ⟨5, _⟩ => ⟨S8x8192x512, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S8x8192x1, .f32⟩
  | .hbm, ⟨10, _⟩ => ⟨S8x8192x512, .f32⟩
  | .hbm, ⟨11, _⟩ => ⟨S8x8192x512, .f32⟩
  | .hbm, ⟨12, _⟩ => ⟨S8x8192x512, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S8x8192x1, .f32⟩
  | .hbm, ⟨17, _⟩ => ⟨S8x8192x512, .f32⟩
  | .hbm, ⟨18, _⟩ => ⟨S8x8192x512, .f32⟩
  | .hbm, ⟨19, _⟩ => ⟨S8x8192x512, .f32⟩
  | .hbm, ⟨20, _⟩ => ⟨S_, .f32⟩
  | .hbm, ⟨21, _⟩ => ⟨S8x512, .f32⟩
  | .hbm, ⟨22, _⟩ => ⟨S8x1x512, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S1x1x512, .f32⟩
  | .hbm, ⟨27, _⟩ => ⟨S8x8192x512, .f32⟩
  | .hbm, ⟨28, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  reducesTo_S8x8192x512_S8x8192_d2 : S8x8192x512.ReducesTo [2] S8x8192
  h_S_ : 0 < S_.numel
  bcast_S8x8192_S8x8192x1_0_1 : S8x8192.BroadcastsInDim S8x8192x1 (![0, 1] : Fin 2 → Fin S8x8192x1.rank)
  bcast_S8x8192x1_S8x8192x512_0_1_2 : S8x8192x1.BroadcastsInDim S8x8192x512 (![0, 1, 2] : Fin 3 → Fin S8x8192x512.rank)
  reducesTo_S8x8192x512_S8x512_d1 : S8x8192x512.ReducesTo [1] S8x512
  bcast_S8x512_S8x1x512_0_2 : S8x512.BroadcastsInDim S8x1x512 (![0, 2] : Fin 2 → Fin S8x1x512.rank)
  bcast_S8x1x512_S8x8192x512_0_1_2 : S8x1x512.BroadcastsInDim S8x8192x512 (![0, 1, 2] : Fin 3 → Fin S8x8192x512.rank)
  bcast_S512_S1x1x512_2 : S512.BroadcastsInDim S1x1x512 (![2] : Fin 1 → Fin S1x1x512.rank)
  bcast_S1x1x512_S8x8192x512_0_1_2 : S1x1x512.BroadcastsInDim S8x8192x512 (![0, 1, 2] : Fin 3 → Fin S8x8192x512.rank)
  dot_S8x8192x512_S512x512_S8x8192x512_2_1_01_0_n_n_wf : DotDims.WF S8x8192x512 S512x512 S8x8192x512 [2] [1] [0, 1] [0] [] []

variable [Facts₀]

def dot_S8x8192x512_S512x512_S8x8192x512_2_1_01_0_n_n : DotDims S8x8192x512 S512x512 S8x8192x512 where
  lhsContracting := [2]
  rhsContracting := [1]
  lhsNonContracting := [0, 1]
  rhsNonContracting := [0]
  lhsBatch := []
  rhsBatch := []
  wf := dot_S8x8192x512_S512x512_S8x8192x512_2_1_01_0_n_n_wf

class Facts : Prop extends Facts₀ where

variable [Facts]
-- ==== Proof.Body0.lean ====
/-
  The sequence-sum kernel's body, run once per control case.

  At a grid point (b, l) the body holds a tile of 1024 rows of k and of v, the running sum acc (one row of 512
  lanes, kept between points) and the output row. It (i) clears acc when l = 0, (ii) adds to acc the tile's
  contribution, the column sums of (k / sqrt(row-sum of k²)) · v, and (iii) when l = 7 copies acc to the output row.
  Three cases meet on the grid: l = 0 (clear, no copy), 0 < l < 7 (neither) and l = 7 (copy, no clear). Each
  triple says what the four buffers hold afterwards, as the body's own arithmetic terms over what they held before:
  the tiles unchanged, acc at the old acc (or the cleared one) plus the contribution, the output row untouched
  or at acc's new contents.
-/
import proofs.«127834_j82111184765009_1_alg».proof.Proof.Gen.KernelIdeal.Launch
import proofs.«127834_j82111184765009_1_alg».proof.Proof.Gen.KernelIdeal.Skeleton
import proofs.«127834_j82111184765009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken exactly when the sequence coordinate is zero (the condition as the body spells it). -/
abbrev cond1 (i : grid0.Coords) : Prop :=
  Scalar.cmpi .ne (Scalar.extui (Scalar.cmpi .eq (BitVec.ofNat 32 (i 1).val) 0#32) : BitVec 32) 0#32 = 1#1

/-- The zero offsets of a whole-buffer access, rank 1, 2 and 3. -/
theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- l = 0: acc is cleared, then holds the cleared row plus the tile's contribution; the output row is not touched. -/
theorem sound_kernel0_first (c : Dev nD) (E : Set ℕ) (i : grid0.Coords) (h1 : cond1 i) (h2 : ¬ k0_cond2 i = 1#1)
    (arg2 : Memref sig .tc .vmem S1x1024x512 .f32) (harg2 : arg2.IsWhole) (arg3 : Memref sig .tc .vmem S1x1024x512 .f32) (harg3 : arg3.IsWhole)
    (arg4 : Memref sig .tc .vmem S1x1x512 .f32) (harg4 : arg4.IsWhole) (arg5 : Memref sig .tc .vmem S1x512 .f32) (harg5 : arg5.IsWhole)
    (x0 x1 : Vec F S1x1024x512 .f32) (d4 : Vec F S1x1x512 .f32) (K : PUnit → sProp 𝕄) :
    iprop(owns (c : Thread nD τ) arg2 fullShare x0 ∗ owns (c : Thread nD τ) arg3 fullShare x1
        ∗ owns (c : Thread nD τ) arg4 fullShare d4 ∗ (∃ d, owns (c : Thread nD τ) arg5 fullShare d)
        ∗ (iprop(owns (c : Thread nD τ) arg2 fullShare x0 ∗ owns (c : Thread nD τ) arg3 fullShare x1
            ∗ owns (c : Thread nD τ) arg4 fullShare d4
            ∗ owns (c : Thread nD τ) arg5 fullShare (k0_pay2 x0 x1 (k0_pay1 (F := F)))) -∗ K ⟨⟩))
      ⊢ wp frame (wpE (defs₀ (F := F)) Variants.none c none) E (cc0__kv_sum_kernel i arg2 harg2 arg3 harg3 arg4 harg4 arg5 harg5) K := by
  simp only [cc0__kv_sum_kernel_eq_skeleton]; unfold cc0__kv_sum_kernel_skel
  unfold owns
  iintro ⟨⟨%f0, %hf0, H0⟩, ⟨%f1, %hf1, H1⟩, ⟨%f4, %hf4, H4⟩, ⟨%d5, %f5, -, H5⟩, Hk⟩
  subst hf0; subst hf1; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  sl_unfold_words
  rw [View.read_writes_eq_canon _ _ _ (fun y => ⟨_, List.Mem.head _, View.mem_set_unit_zero (S := S1x512) hz2 inb_S1x512_S1x512_0_0 y⟩),
    View.canon_cons_unit_zero hz2]
  simp only [View.readAt_eq_ld, View.ld_unit_zero (S := S1x1024x512) hz3, View.readCov_unit_zero (S := S1x512) _ hz2]

set_option maxHeartbeats 1000000 in
/-- 0 < l < 7: acc gains the tile's contribution; the output row is not touched. -/
theorem sound_kernel0_mid (c : Dev nD) (E : Set ℕ) (i : grid0.Coords) (h1 : ¬ cond1 i) (h2 : ¬ k0_cond2 i = 1#1)
    (arg2 : Memref sig .tc .vmem S1x1024x512 .f32) (harg2 : arg2.IsWhole) (arg3 : Memref sig .tc .vmem S1x1024x512 .f32) (harg3 : arg3.IsWhole)
    (arg4 : Memref sig .tc .vmem S1x1x512 .f32) (harg4 : arg4.IsWhole) (arg5 : Memref sig .tc .vmem S1x512 .f32) (harg5 : arg5.IsWhole)
    (x0 x1 : Vec F S1x1024x512 .f32) (d4 : Vec F S1x1x512 .f32) (s : Vec F S1x512 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare s
        ∗ (iprop(owns (c : Thread nD τ) arg2 fullShare x0 ∗ owns (c : Thread nD τ) arg3 fullShare x1
            ∗ owns (c : Thread nD τ) arg4 fullShare d4
            ∗ owns (c : Thread nD τ) arg5 fullShare (k0_pay2 x0 x1 s)) -∗ K ⟨⟩))
      ⊢ wp frame (wpE (defs₀ (F := F)) Variants.none c none) E (cc0__kv_sum_kernel i arg2 harg2 arg3 harg3 arg4 harg4 arg5 harg5) K := by
  simp only [cc0__kv_sum_kernel_eq_skeleton]; unfold cc0__kv_sum_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  sl_unfold_words
  rw [View.read_writes_eq_canon _ _ _ (fun y => ⟨_, List.Mem.head _, View.mem_set_unit_zero (S := S1x512) hz2 inb_S1x512_S1x512_0_0 y⟩),
    View.canon_cons_unit_zero hz2]
  simp only [View.readAt_eq_ld, View.ld_unit_zero (S := S1x1024x512) hz3, View.ld_unit_zero (S := S1x512) hz2]

set_option maxHeartbeats 1000000 in
/-- l = 7: acc gains the tile's contribution, and the output row takes acc's new contents. -/
theorem sound_kernel0_last (c : Dev nD) (E : Set ℕ) (i : grid0.Coords) (h1 : ¬ cond1 i) (h2 : k0_cond2 i = 1#1)
    (arg2 : Memref sig .tc .vmem S1x1024x512 .f32) (harg2 : arg2.IsWhole) (arg3 : Memref sig .tc .vmem S1x1024x512 .f32) (harg3 : arg3.IsWhole)
    (arg4 : Memref sig .tc .vmem S1x1x512 .f32) (harg4 : arg4.IsWhole) (arg5 : Memref sig .tc .vmem S1x512 .f32) (harg5 : arg5.IsWhole)
    (x0 x1 : Vec F S1x1024x512 .f32) (s : Vec F S1x512 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s))
            ∗ owns (c : Thread nD τ) arg5 fullShare (k0_pay2 x0 x1 s)) -∗ K ⟨⟩))
      ⊢ wp frame (wpE (defs₀ (F := F)) Variants.none c none) E (cc0__kv_sum_kernel i arg2 harg2 arg3 harg3 arg4 harg4 arg5 harg5) K := by
  simp only [cc0__kv_sum_kernel_eq_skeleton]; unfold cc0__kv_sum_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.Mem.head _, View.mem_set_unit_zero (S := S1x1x512) hz3 inb_S1x1x512_S1x1x512_0_0_0 y⟩),
      View.canon_cons_unit_zero hz3]
    simp only [View.readAt_eq_ld, View.ld_unit_zero (S := S1x1024x512) hz3, View.ld_unit_zero (S := S1x512) hz2,
      View.readCov_unit_zero (S := S1x512) _ hz2]
  iexists _; isplitr
  swap; · iexact H5
  ipureintro
  sl_unfold_words
  rw [View.read_writes_eq_canon _ _ _ (fun y => ⟨_, List.Mem.head _, View.mem_set_unit_zero (S := S1x512) hz2 inb_S1x512_S1x512_0_0 y⟩),
    View.canon_cons_unit_zero hz2]
  simp only [View.readAt_eq_ld, View.ld_unit_zero (S := S1x1024x512) hz3, View.ld_unit_zero (S := S1x512) hz2]

end Cert.KernelIdeal.Hand

end
-- ==== Proof.Data0.lean ====
/-
  The sequence-sum region's proof data, at any contents V of the buffers when the region is entered.

  Point t of the 8 x 8 grid is (b, l) = (t / 8, t % 8). Its k-tile and v-tile are blocks of the arrays as the region
  finds them. What the kept row acc holds after point t is defined by recursion on t: at l = 0 the cleared row plus
  the tile's contribution, otherwise what point t - 1 left plus the tile's contribution. The output row's staging buffer
  after a point with l = 7 holds acc. The region's invariant before point t > 0 is: the kept row at what point t - 1
  left, the other scoped buffers at anything, the generator register at some state; before point 0 it is what
  the launch hands over. With the three triples of the body this gives the body's obligation at every point.
-/
import proofs.«127834_j82111184765009_1_alg».proof.Proof.Gen.KernelIdeal.Launch
import proofs.«127834_j82111184765009_1_alg».proof.Proof.Gen.KernelIdeal.Skeleton
import proofs.«127834_j82111184765009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«127834_j82111184765009_1_alg».proof.Proof.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The k-tile's staging buffer holds the tile at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the v-tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The k-tile and the v-tile of point `t`, at their literal type. -/
abbrev kblk (c : Dev nD) (t : Fin cfg0.N) : Vec F S1x1024x512 .f32 := iblk0 V c 0 t
abbrev vblk (c : Dev nD) (t : Fin cfg0.N) : Vec F S1x1024x512 .f32 := iblk0 V c 1 t

/-! ## The running sum -/

/-- What the kept row holds after point `n`: cleared and refilled at the first tile of a batch, else added to. -/
def acc0 (c : Dev nD) : (n : ℕ) → n < cfg0.N → Vec F S1x512 .f32
  | 0, hn => k0_pay2 (kblk V c ⟨0, hn⟩) (vblk V c ⟨0, hn⟩) (k0_pay1 (F := F))
  | n + 1, hn =>
    if (n + 1) % 8 = 0 then k0_pay2 (kblk V c ⟨n + 1, hn⟩) (vblk V c ⟨n + 1, hn⟩) (k0_pay1 (F := F))
    else k0_pay2 (kblk V c ⟨n + 1, hn⟩) (vblk V c ⟨n + 1, hn⟩) (acc0 c n (Nat.lt_of_succ_lt hn))

theorem acc0_first (c : Dev nD) (t : Fin cfg0.N) (h : t.val % 8 = 0) :
    acc0 V c t.val t.isLt = k0_pay2 (kblk V c t) (vblk V c t) (k0_pay1 (F := F)) := by
  obtain ⟨n, hn⟩ := t
  cases n with
  | zero => rfl
  | succ n => exact if_pos h

theorem acc0_next (c : Dev nD) (t : Fin cfg0.N) (h : ¬ t.val % 8 = 0) :
    acc0 V c t.val t.isLt = k0_pay2 (kblk V c t) (vblk V c t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The conditions over the grid, in closed form -/

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)
/-- The output row is idle, and not written back, exactly where the copy is not made. -/
theorem idleAt0_2 : ∀ t : Fin cfg0.N, ¬ k0_cond2 (grid0.coords t) = 1#1 → cfg0.idle 2 (grid0.coords t) = true := by decide +kernel
theorem liveAt0_2 : ∀ t : Fin cfg0.N, k0_cond2 (grid0.coords t) = 1#1 → cfg0.idle 2 (grid0.coords t) = false := by decide +kernel
theorem noFlush0_2 : ∀ t : Fin cfg0.N, ¬ k0_cond2 (grid0.coords t) = 1#1 → (cfg0.win 2).flush t = false := by decide +kernel

/-! ## The invariant -/

/-- The kept row, as a memref. -/
abbrev scM0 : Memref sig .tc .vmem S1x512 .f32 := Memref.whole cc0_scratch0

/-- The core's other scoped buffers that this region does not stage (the next region's staging buffers), at anything. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region: the kept row at anything, the other scoped buffers, the generator register. -/
theorem PhiA0_eq (c : Dev nD) :
    (Pipeline.ΦA spec0 c : sProp 𝕄)
      = iprop(iprop((∃ d, owns (c : Thread nD τ) scM0 fullShare d) ∗ Rest0 (F := F) c) ∗ (∃ r, prngReg c r)) := by
  unfold Pipeline.ΦA Rest0; rw [scopedRest0_eq]; simp only [scM0, owns_whole]; try rfl

/-- The invariant before position `n`. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ Rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (acc0 V c n hn) ∗ Rest0 (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare (acc0 V c (n - 1) (by omega)) ∗ Rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  have hN : t.val < 64 := lt_of_lt_of_eq t.isLt (show cfg0.N = 64 from N_0)
  by_cases h0 : t.val % 8 = 0
  · -- the first tile of a batch
    have hc1 : cond1 (grid0.coords t) := (hcond1 t).mpr h0
    have hc2 : ¬ k0_cond2 (grid0.coords t) = 1#1 := fun h => by have := (hcond2 t).mp h; omega
    rw [Dat.leavesExact_idle (dat0 V c) 2 t (idleAt0_2 t hc2) (noFlush0_2 t hc2)]
    rw [acc0_first V c t h0]
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩⟩
      iapply (sound_kernel0_first c Set.univ (grid0.coords t) hc1 hc2 _ _ _ _ _ _ _ _ (kblk V c t) (vblk V c t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, HR⟩, Hg⟩, Ho, ⟨%d0, H0⟩, ⟨%d1, H1⟩, ⟨%d2, H2⟩⟩
      iapply (sound_kernel0_first c Set.univ (grid0.coords t) hc1 hc2 _ _ _ _ _ _ _ _ (kblk V c t) (vblk V c t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hc1 : ¬ cond1 (grid0.coords t) := fun h => h0 ((hcond1 t).mp h)
    have hz : t.val ≠ 0 := fun e => h0 (by rw [e])
    rw [acc0_next V c t h0]
    rw [PhiS_castSucc V c t, PhiS_pos V c _ _ hz]
    by_cases h7 : t.val % 8 = 7
    · -- the last tile of a batch: the copy to the output row
      have hc2 : k0_cond2 (grid0.coords t) = 1#1 := (hcond2 t).mpr h7
      rw [show (dat0 V c).leavesExact 2 t = owns (c : Thread nD τ) (st0_2 t) fullShare ((dat0 V c).after 2 t) from by
        unfold Dat.leavesExact; rw [liveAt0_2 t hc2], after0_2, acc0_next V c t h0]
      iintro ⟨⟨⟨HS, HR⟩, Hg⟩, Ho, ⟨%d0, H0⟩, ⟨%d1, H1⟩, ⟨%d2, H2⟩⟩
      iapply (sound_kernel0_last c Set.univ (grid0.coords t) hc1 hc2 _ _ _ _ _ _ _ _ (kblk V c t) (vblk V c t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc2 : ¬ k0_cond2 (grid0.coords t) = 1#1 := fun h => h7 ((hcond2 t).mp h)
      rw [Dat.leavesExact_idle (dat0 V c) 2 t (idleAt0_2 t hc2) (noFlush0_2 t hc2)]
      iintro ⟨⟨⟨HS, HR⟩, Hg⟩, Ho, ⟨%d0, H0⟩, ⟨%d1, H1⟩, ⟨%d2, H2⟩⟩
      iapply (sound_kernel0_mid c Set.univ (grid0.coords t) hc1 hc2 _ _ _ _ _ _ _ _ (kblk V c t) (vblk V c t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives it back, the kept row's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, HR⟩, Hg⟩
  isplitl [HS HR]
  · isplitl [HS]; · iexists _; iexact HS
    iexact HR
  iexact Hg

end Cert.KernelIdeal.Hand

end
-- ==== Proof.Body1.lean ====
/-
  The output kernel's body, run once (it has one control case).

  At a grid point (b, l) the body holds a tile of 1024 rows of q, the row of sequence sums for batch b, the whole
  weight matrix, the bias, and the output tile. It normalises each row of q by the square root of its sum of squares,
  scales each lane by the sequence sum, contracts the 512 lanes against the weight matrix's second axis and adds the
  bias. The triple says the output tile ends at that arithmetic term of the four inputs, which are left unchanged.
-/
import proofs.«127834_j82111184765009_1_alg».proof.Proof.Gen.KernelIdeal.Launch
import proofs.«127834_j82111184765009_1_alg».proof.Proof.Gen.KernelIdeal.Skeleton
import proofs.«127834_j82111184765009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1' : (![0] : Fin 1 → ℕ) = fun _ => 0 := by funext a; fin_cases a; rfl
theorem hz2' : (![0, 0] : Fin 2 → ℕ) = fun _ => 0 := by funext a; fin_cases a <;> rfl
theorem hz3' : (![0, 0, 0] : Fin 3 → ℕ) = fun _ => 0 := by funext a; fin_cases a <;> rfl

set_option maxHeartbeats 1000000 in
theorem sound_kernel1 (c : Dev nD) (E : Set ℕ) (i : grid1.Coords)
    (arg2 : Memref sig .tc .vmem S1x1024x512 .f32) (harg2 : arg2.IsWhole) (arg3 : Memref sig .tc .vmem S1x1x512 .f32) (harg3 : arg3.IsWhole)
    (arg4 : Memref sig .tc .vmem S512x512 .bf16) (harg4 : arg4.IsWhole) (arg5 : Memref sig .tc .vmem S512 .f32) (harg5 : arg5.IsWhole)
    (arg6 : Memref sig .tc .vmem S1x1024x512 .f32) (harg6 : arg6.IsWhole)
    (x0 : Vec F S1x1024x512 .f32) (x1 : Vec F S1x1x512 .f32) (x2 : Vec F S512x512 .bf16) (x3 : Vec F S512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay1 x0 x1 x2 x3)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.Mem.head _, View.mem_set_unit_zero (S := S1x1024x512) hz3' inb_S1x1024x512_S1x1024x512_0_0_0 y⟩),
    View.canon_cons_unit_zero hz3']
  simp only [View.readAt_eq_ld, View.ld_unit_zero (S := S1x1024x512) hz3', View.ld_unit_zero (S := S1x1x512) hz3',
    View.ld_unit_zero (S := S512x512) hz2', View.ld_unit_zero (S := S512) hz1']

end Cert.KernelIdeal.Hand

end
-- ==== Proof.Data1.lean ====
/-
  The output region's proof data, at any contents V of the buffers when the region is entered.

  Point t of the 8 x 8 grid is (b, l) = (t / 8, t % 8). Its q-tile is block (b, l) of q; the sequence-sum row is
  row b of the first region's result (fetched when b changes); the weight matrix and the bias are whole arrays fetched
  once. Each of these four sits in its staging buffer at every point, fetched there or not, because an unfetched
  window's block index has not moved. The output tile after the point is the body's arithmetic term of the four. The
  body keeps nothing between points, so the region's invariant is the one the launch hands over, unchanged.
-/
import proofs.«127834_j82111184765009_1_alg».proof.Proof.Gen.KernelIdeal.Launch
import proofs.«127834_j82111184765009_1_alg».proof.Proof.Gen.KernelIdeal.Skeleton
import proofs.«127834_j82111184765009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«127834_j82111184765009_1_alg».proof.Proof.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output tile at point `t`. -/
abbrev otile (c : Dev nD) (t : Fin cfg1.N) : Vec F S1x1024x512 .f32 :=
  k1_pay1 (iblk1 V c 0 t) (iblk1 V c 1 t) (iblk1 V c 2 t) (iblk1 V c 3 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => otile V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = otile V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The launch: @main is the sequence-sum region, one host operation (the weight matrix re-typed), the output region.

  The unscoped buffers' contents are followed through the three items: at launch the memory `m`; after the first
  region its result array at what the write-backs leave, everything else as before; after the host operation its one
  result written; after the second region its result array at what its write-backs leave. Each region enters from
  "every unscoped buffer at the boundary's contents, the generator register at some state, nothing owed" and leaves
  at the same with the next contents. No region and no host operation writes an argument, so each argument ends as
  launched, and the program's result ends at what the output region's write-backs leave.
-/
import proofs.«127834_j82111184765009_1_alg».proof.Proof.Gen.KernelIdeal.Launch
import proofs.«127834_j82111184765009_1_alg».proof.Proof.Gen.KernelIdeal.Skeleton
import proofs.«127834_j82111184765009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«127834_j82111184765009_1_alg».proof.Proof.Gen.KernelIdeal.Regions
import proofs.«127834_j82111184765009_1_alg».proof.Proof.Data0
import proofs.«127834_j82111184765009_1_alg».proof.Proof.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same at the TensorCore's references: what the first region's proof data take. -/
abbrev Va : (c : Dev nD) → (b : Ref sig .tc) → Buf (Elt F) ((c : Thread nD τ).loc b) := fun c b => W0 m c b
/-- After the first region: its arrays at what the pipeline leaves, every other buffer as before. -/
def W1 (c : Dev nD) : Valuation τ sig (Elt F) :=
  Pipeline.withArrays spec0 c (W0 m c) fun w => (dat0 (Va m) c).arrAt w cfg0.N
theorem W1_arr (c : Dev nD) (w : Fin cfg0.W) :
    W1 m c (Proc.devRef .tc (Pipeline.arrRef spec0 w)) = (dat0 (Va m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (Va m) c).arrAt w cfg0.N = V1 m c (Pipeline.arrRef spec0 w) :=
  (W1_arr m c w).symm
theorem hrest0 (c : Dev nD) : ∀ b, b ∉ Finset.univ.image (Pipeline.arrRef spec0) → V1 m c b = Va m c b :=
  fun b hb => W1_of_ne m c b fun w e => hb (Finset.mem_image.mpr ⟨w, Finset.mem_univ _, e⟩)

/-- After the host operation: the second region's entry. -/
abbrev W2 : Dev nD → Valuation τ sig (Elt F) := fun c => StableHlo.after hostOps1 (W1 m c)
abbrev Vb : (c : Dev nD) → (b : Ref sig .tc) → Buf (Elt F) ((c : Thread nD τ).loc b) := fun c b => W2 m c b
/-- The host operation writes its one result only. -/
theorem W2_of_not_written (c : Dev nD) (b : Ref sig .tc) (hb : b ∉ hostOps1_W) :
    W2 m c (Proc.devRef .tc b) = W1 m c (Proc.devRef .tc b) :=
  StableHlo.after_of_writes_sub hostOps1 _ hostOps1_writes hb

/-- After the second region. -/
def W3 (c : Dev nD) : Valuation τ sig (Elt F) :=
  Pipeline.withArrays spec1 c (W2 m c) fun w => (dat1 (Vb m) c).arrAt w cfg1.N
theorem W3_arr (c : Dev nD) (w : Fin cfg1.W) :
    W3 m c (Proc.devRef .tc (Pipeline.arrRef spec1 w)) = (dat1 (Vb m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (Vb m) c).arrAt w cfg1.N = V3 m c (Pipeline.arrRef spec1 w) :=
  (W3_arr m c w).symm
theorem hrest1 (c : Dev nD) : ∀ b, b ∉ Finset.univ.image (Pipeline.arrRef spec1) → V3 m c b = Vb m c b :=
  fun b hb => W3_of_ne m c b fun w e => hb (Finset.mem_image.mpr ⟨w, Finset.mem_univ _, e⟩)

/-! ## Each argument ends as launched; the result ends at the output region's write-backs -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (Vb m) c).arrAt_in 0 rfl _).trans (A_eq1 (Vb m) c 0))
    _ = W1 m c (Proc.devRef .tc main_arg0) := W2_of_not_written m c main_arg0 (by decide)
    _ = W0 m c (Proc.devRef .tc main_arg0) := W1_of_ne m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_not_written m c main_arg1 (by decide)
    _ = W0 m c (Proc.devRef .tc main_arg1) := (W1_arr m c 0).trans (((dat0 (Va m) c).arrAt_in 0 rfl _).trans (A_eq0 (Va m) c 0))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_not_written m c main_arg2 (by decide)
    _ = W0 m c (Proc.devRef .tc main_arg2) := (W1_arr m c 1).trans (((dat0 (Va m) c).arrAt_in 1 rfl _).trans (A_eq0 (Va m) c 1))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_not_written m c main_arg3 (by decide)
    _ = W0 m c (Proc.devRef .tc main_arg3) := W1_of_ne m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 3).trans (((dat1 (Vb m) c).arrAt_in 3 rfl _).trans (A_eq1 (Vb m) c 3))
    _ = W1 m c (Proc.devRef .tc main_arg4) := W2_of_not_written m c main_arg4 (by decide)
    _ = W0 m c (Proc.devRef .tc main_arg4) := W1_of_ne m c main_arg4 (by decide)
    _ = m ((c : Thread nD τ).loc main_arg4) := rfl
theorem W3_main_v2 (c : Dev nD) : W3 m c (Proc.devRef .tc main_v2) = (dat1 (Vb m) c).arrAt 4 cfg1.N := W3_arr m c 4

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The sequence-sum region: entered from `W0`, left at `W1`. The generator register and the scoped rest enter the
    invariant (the kept row among them) and come back with the kept row's contents forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (Va m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered from `W2`, left at `W3`; its invariant is the launch's, in and out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    with the program's result at what the output region's write-backs leave and every argument as launched. -/
theorem run_named : θ_run defs (onTc (τ := τ) (main (F := F))) ⟨m, fun _ => 0, ρ⟩ (fun r => ∀ c : Dev nD,
      r.2.mem ((c.tc : Thread nD τ).loc main_v2) = (dat1 (Vb m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_main_v2 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c)⟩)

/-- THE FRAME, at any instance: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.KernelIdeal.Hand

end
-- ==== Proof.Spec.lean ====
/-
  Cosine-similarity linear attention over the extended reals: the two arrangements of one formula.

  For q, k, v of shape 8 x 8192 x 512, a weight matrix W (512 x 512) and a bias (512):
    unit x (b, l, c)  = x(b, l, c) / sqrt (sum over c' of x(b, l, c')^2)        a row scaled to Euclidean length one
    kv (b, c)         = sum over the sequence l of unit k (b, l, c) * v(b, l, c)
    out (b, l, o)     = (sum over c of (unit q (b, l, c) · kv (b, c)) * W(o, c)) + bias(o).
  One arrangement (`kvR`, `outR`) sums the sequence in one go and multiplies `kv` on the left; the other (`kvK`, `outK`)
  sums it tile by tile, 8 tiles of 1024 rows, into a running sum, and multiplies `kv` on the right. They agree on
  the extended reals with no finiteness assumption: only commutativity of the product and regrouping of a sum are used.
-/
import Idealize.ShloMosaic.PureOps.Ideal
import Mathlib.Algebra.BigOperators.Fin
import Mathlib.Algebra.BigOperators.Group.Finset.Sigma
import Mathlib.Data.Fintype.BigOperators

noncomputable section

namespace Cert.LinAttn

open Idealize.ShloMosaic

/-- Row `r` of tile `j` in the sequence of 8192. -/
def row (j : Fin 8) (r : Fin 1024) : Fin 8192 := ⟨1024 * j.val + r.val, by omega⟩

/-- The Euclidean length of row (b, l) of `x`. -/
def rnorm (x : Fin 8 → Fin 8192 → Fin 512 → EReal) (b : Fin 8) (l : Fin 8192) : EReal :=
  Ideal.sqrt (∑ c : Fin 512, x b l c * x b l c)

/-- Row (b, l) of `x` scaled to length one. -/
def unit (x : Fin 8 → Fin 8192 → Fin 512 → EReal) (b : Fin 8) (l : Fin 8192) (c : Fin 512) : EReal :=
  Ideal.div (x b l c) (rnorm x b l)

/-- Tiles and rows within a tile enumerate the sequence: (j, r) ↦ 1024 j + r is a bijection onto 0 … 8191,
with inverse l ↦ (l / 1024, l % 1024). -/
def rowEquiv : Fin 8 × Fin 1024 ≃ Fin 8192 where
  toFun p := row p.1 p.2
  invFun l := (⟨l.val / 1024, by omega⟩, ⟨l.val % 1024, by omega⟩)
  left_inv := by
    rintro ⟨j, r⟩
    refine Prod.ext (Fin.ext ?_) (Fin.ext ?_)
    · show (1024 * j.val + r.val) / 1024 = j.val
      omega
    · show (1024 * j.val + r.val) % 1024 = r.val
      omega
  right_inv := by
    intro l
    refine Fin.ext ?_
    show 1024 * (l.val / 1024) + l.val % 1024 = l.val
    omega

/-- A sum over the sequence is the sum over the tiles of the sums over each tile's rows. -/
theorem sum_tiles (f : Fin 8192 → EReal) :
    ∑ j : Fin 8, ∑ r : Fin 1024, f (row j r) = ∑ l : Fin 8192, f l := by
  rw [← Fintype.sum_prod_type' (fun j r => f (row j r))]
  exact Equiv.sum_comp rowEquiv f

variable (q k v : Fin 8 → Fin 8192 → Fin 512 → EReal) (W : Fin 512 → Fin 512 → EReal) (bias : Fin 512 → EReal)

/-- The sequence sum in one go. -/
def kvR (b : Fin 8) (c : Fin 512) : EReal := ∑ l : Fin 8192, unit k b l c * v b l c

/-- One tile's contribution to the sequence sum. -/
def tileSum (b : Fin 8) (j : Fin 8) (c : Fin 512) : EReal := ∑ r : Fin 1024, unit k b (row j r) c * v b (row j r) c

/-- The running sum after tiles 0 … j (for j past the last tile, nothing more is added). -/
def accK (b : Fin 8) (c : Fin 512) : ℕ → EReal
  | 0 => tileSum k v b 0 c
  | j + 1 => if h : j + 1 < 8 then accK b c j + tileSum k v b ⟨j + 1, h⟩ c else accK b c j

/-- The sequence sum tile by tile. -/
def kvK (b : Fin 8) (c : Fin 512) : EReal := accK k v b c 7

/-- The output with `kv` multiplied on the left and the sequence summed in one go. -/
def outR (b : Fin 8) (l : Fin 8192) (o : Fin 512) : EReal :=
  (∑ c : Fin 512, (kvR k v b c * unit q b l c) * W o c) + bias o

/-- The output from a given row of sequence sums, multiplied on the right. -/
def outK (kv : Fin 8 → Fin 512 → EReal) (b : Fin 8) (l : Fin 8192) (o : Fin 512) : EReal :=
  (∑ c : Fin 512, (unit q b l c * kv b c) * W o c) + bias o

/-- The running sum after the last tile is the sum of the eight tiles, grouped from the left. -/
theorem accK_seven (b : Fin 8) (c : Fin 512) :
    accK k v b c 7 = ∑ j : Fin 8, tileSum k v b j c := by
  rw [Fin.sum_univ_eight]
  rfl

/-- Summing tile by tile gives the sum over the whole sequence. -/
theorem kvK_eq_kvR (b : Fin 8) (c : Fin 512) : kvK k v b c = kvR k v b c := by
  unfold kvK kvR
  rw [accK_seven]
  exact sum_tiles (fun l => unit k b l c * v b l c)

/-- The two arrangements are one function. -/
theorem outK_kvK_eq_outR (b : Fin 8) (l : Fin 8192) (o : Fin 512) :
    outK q W bias (kvK k v) b l o = outR q k v W bias b l o := by
  unfold outK outR
  congr 1
  refine Finset.sum_congr rfl fun c _ => ?_
  rw [kvK_eq_kvR, mul_comm (unit q b l c)]

end Cert.LinAttn

end
-- ==== Proof.ValK0.lean ====
/-
  The sequence-sum region's result, at the exact instance, as a function of the arrays the region finds.

  Entry (b, 0, c) of the region's result array is the tile-by-tile sequence sum `kvK` of the k and v arrays at
  (b, c): the kept row after point 8 b + l holds the running sum over tiles 0 … l of batch b (induction on the
  point: at l = 0 the cleared row, which is zero, plus the tile's column sums; otherwise the previous point's row
  plus them), and the point with l = 7 writes the row back as block b of the result; those eight blocks cover it.
-/
import proofs.«127834_j82111184765009_1_alg».proof.Proof.Data0
import proofs.«127834_j82111184765009_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- An 8 x 8192 x 512 array by its three coordinates. -/
abbrev arr3 (X : S8x8192x512.Idx → EReal) : Fin 8 → Fin 8192 → Fin 512 → EReal := fun b l c => X (ix3 b l c)

/-! ## The two sums of the tile's arithmetic, read at an index -/

/-- The sum over the 1024 rows of a 1024 x 512 array, at lane j. -/
theorem sumRows_apply (src : FVec Ideal S1024x512 .f32) (h : S1024x512.Reduces [0] S512) (hφ : FKind.Formats .f32)
    (hacc : (0x00000000#32 : BitVec 32) = 0x00000000#32) (j : Fin 512) :
    multiReduction .add [0] S512 src 0x00000000#32 h hφ hacc (ix1 j) = ∑ r : Fin 1024, src (ix2 r j) :=
  (Ideal.multiReduction_add_single src 0x00000000#32 h hφ hacc (ix1 j)).trans
    (Finset.sum_congr rfl fun r _ => congrArg src (funext fun a => match a with | ⟨0, _⟩ => rfl | ⟨1, _⟩ => rfl))

/-- The sum over the 512 lanes of a 1024 x 512 array, at row r. -/
theorem sumLanes_apply (src : FVec Ideal S1024x512 .f32) (h : S1024x512.Reduces [1] S1024) (hφ : FKind.Formats .f32)
    (hacc : (0x00000000#32 : BitVec 32) = 0x00000000#32) (r : Fin 1024) :
    multiReduction .add [1] S1024 src 0x00000000#32 h hφ hacc (ix1 r) = ∑ c' : Fin 512, src (ix2 r c') :=
  (Ideal.multiReduction_add_single src 0x00000000#32 h hφ hacc (ix1 r)).trans
    (Finset.sum_congr rfl fun c' _ => congrArg src (funext fun a => match a with | ⟨0, _⟩ => rfl | ⟨1, _⟩ => rfl))

/-- The kept row after a tile: what it held plus, lane by lane, the sum over the tile's 1024 rows of the first tile's
    entry divided by its row's length, times the second tile's entry. -/
theorem pay2_apply (x0 x1 : Vec Ideal S1x1024x512 .f32) (s : Vec Ideal S1x512 .f32) (j : Fin 512) :
    k0_pay2 x0 x1 s (ix2 (0 : Fin 1) j)
      = s (ix2 (0 : Fin 1) j) + ∑ r : Fin 1024,
          Ideal.div (x0 (ix3 (0 : Fin 1) r j)) (Ideal.sqrt (∑ c' : Fin 512, x0 (ix3 (0 : Fin 1) r c') * x0 (ix3 (0 : Fin 1) r c')))
            * x1 (ix3 (0 : Fin 1) r j) := by
  unfold k0_pay2
  rw [shapeCast_self, addf_apply]
  congr 1
  rw [shapeCast_a_1a_apply]
  refine (sumRows_apply _ _ _ _ j).trans (Finset.sum_congr rfl fun r _ => ?_)
  rw [mulf_apply, divf_apply, shapeCast_1ab_ab_apply, shapeCast_1ab_ab_apply]
  refine congrArg (fun z => Ideal.div (x0 (ix3 (0 : Fin 1) r j)) z * x1 (ix3 (0 : Fin 1) r j)) ?_
  -- the row's length: broadcast along the lanes, so read at lane 0 of the column of lengths
  refine (broadcastTo_apply _ _ (ix2 r j) (ix2 r (0 : Fin 1))
    (fun a => match a with | ⟨0, _⟩ => rfl | ⟨1, _⟩ => rfl)).trans ?_
  show Ideal.sqrt _ = Ideal.sqrt _
  refine congrArg Ideal.sqrt ?_
  refine (shapeCast_apply _ _ (ix2 r (0 : Fin 1)) (ix1 r)
    (by rw [Shape.rowMajor_val_one, Shape.rowMajor_val_two]; show r.val = r.val * 1 + 0; omega)).trans ?_
  refine (sumLanes_apply _ _ _ _ r).trans (Finset.sum_congr rfl fun c' _ => ?_)
  rw [mulf_apply, shapeCast_1ab_ab_apply]

/-! ## The body's arithmetic, read at an index -/

/-- The cleared row is zero. -/
theorem clearedRow_apply (j : Fin 512) : k0_pay1 (F := Ideal) (ix2 (0 : Fin 1) j) = 0 := by
  unfold k0_pay1
  rw [shapeCast_self]
  exact Ideal.ofBits_zero_f32

/-- The output row's block is the kept row with a unit axis put in. -/
theorem pay3_apply (s : Vec Ideal S1x512 .f32) (j : Fin 512) :
    k0_pay3 s (ix3 (0 : Fin 1) (0 : Fin 1) j) = s (ix2 (0 : Fin 1) j) := by
  unfold k0_pay3
  exact shapeCast_ab_1ab_apply s _ 0 0 j

variable (V : (c : Dev nD) → (b : Ref sig .tc) → Buf (Elt Ideal) ((c : Thread nD τ).loc b))

/-! ## The tiles, read at an index -/

/-- The three index maps over the grid: point t is batch t / 8 and tile t % 8; the k- and v-tiles are block
    (t / 8, t % 8, 0) of their arrays, the output row is block (t / 8, 0, 0) of the result. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- Row r, lane j of the k-tile at point 8 b + l is the k array at (b, row l r, j). -/
theorem kblk_apply (c : Dev nD) (t : Fin cfg0.N) (b l : Fin 8) (ht : t.val = 8 * b.val + l.val) (r : Fin 1024) (j : Fin 512) :
    kblk V c t (ix3 (0 : Fin 1) r j) = arr3 (V c main_arg1) b (Cert.LinAttn.row l r) j := by
  obtain ⟨e0, e1, e2, -⟩ := idx_facts0 t
  have hl := l.isLt
  show V c main_arg1 (((cfg0.win 0).blk t).view.emb (ix3 (0 : Fin 1) r j)) = V c main_arg1 (ix3 b (Cert.LinAttn.row l r) j)
  refine congrArg (V c main_arg1) (funext fun a => Fin.ext ?_)
  match a with
  | ⟨0, _⟩ => show win0_0.index t (0 : Fin 3) * 1 + 1 * 0 = b.val; omega
  | ⟨1, _⟩ => show win0_0.index t (1 : Fin 3) * 1024 + 1 * r.val = 1024 * l.val + r.val; omega
  | ⟨2, _⟩ => show win0_0.index t (2 : Fin 3) * 512 + 1 * j.val = j.val; omega

/-- The same for the v-tile. -/
theorem vblk_apply (c : Dev nD) (t : Fin cfg0.N) (b l : Fin 8) (ht : t.val = 8 * b.val + l.val) (r : Fin 1024) (j : Fin 512) :
    vblk V c t (ix3 (0 : Fin 1) r j) = arr3 (V c main_arg2) b (Cert.LinAttn.row l r) j := by
  obtain ⟨-, -, -, e0, e1, e2, -⟩ := idx_facts0 t
  have hl := l.isLt
  show V c main_arg2 (((cfg0.win 1).blk t).view.emb (ix3 (0 : Fin 1) r j)) = V c main_arg2 (ix3 b (Cert.LinAttn.row l r) j)
  refine congrArg (V c main_arg2) (funext fun a => Fin.ext ?_)
  match a with
  | ⟨0, _⟩ => show win0_1.index t (0 : Fin 3) * 1 + 1 * 0 = b.val; omega
  | ⟨1, _⟩ => show win0_1.index t (1 : Fin 3) * 1024 + 1 * r.val = 1024 * l.val + r.val; omega
  | ⟨2, _⟩ => show win0_1.index t (2 : Fin 3) * 512 + 1 * j.val = j.val; omega

/-- One point's step on the kept row: tile l of batch b adds its contribution to the sequence sum. -/
theorem tile_apply (c : Dev nD) (t : Fin cfg0.N) (b l : Fin 8) (ht : t.val = 8 * b.val + l.val)
    (s : Vec Ideal S1x512 .f32) (j : Fin 512) :
    k0_pay2 (kblk V c t) (vblk V c t) s (ix2 (0 : Fin 1) j)
      = s (ix2 (0 : Fin 1) j) + Cert.LinAttn.tileSum (arr3 (V c main_arg1)) (arr3 (V c main_arg2)) b l j := by
  have hk : ∀ r' j', kblk V c t (ix3 (0 : Fin 1) r' j') = arr3 (V c main_arg1) b (Cert.LinAttn.row l r') j' :=
    fun r' j' => kblk_apply V c t b l ht r' j'
  have hv : ∀ r' j', vblk V c t (ix3 (0 : Fin 1) r' j') = arr3 (V c main_arg2) b (Cert.LinAttn.row l r') j' :=
    fun r' j' => vblk_apply V c t b l ht r' j'
  rw [pay2_apply]
  simp only [hk, hv]
  rfl

/-! ## The kept row along a batch's tiles -/

/-- The kept row after a point does not depend on how the point's number is written. -/
theorem acc0_congr (c : Dev nD) {n m : ℕ} (e : n = m) (hn : n < cfg0.N) (hm : m < cfg0.N) :
    acc0 V c n hn = acc0 V c m hm := by
  subst e; rfl

/-- After tile l of batch b the kept row holds the running sum over tiles 0 … l. -/
theorem acc0_apply (c : Dev nD) (b : Fin 8) (j : Fin 512) :
    ∀ (l : ℕ) (hl : l < 8) (h : 8 * b.val + l < cfg0.N),
      acc0 V c (8 * b.val + l) h (ix2 (0 : Fin 1) j)
        = Cert.LinAttn.accK (arr3 (V c main_arg1)) (arr3 (V c main_arg2)) b j l
  | 0, hl, h => by
    have h1 : acc0 V c (8 * b.val + 0) h
        = k0_pay2 (kblk V c ⟨8 * b.val + 0, h⟩) (vblk V c ⟨8 * b.val + 0, h⟩) (k0_pay1 (F := Ideal)) :=
      acc0_first V c ⟨8 * b.val + 0, h⟩ (by show (8 * b.val + 0) % 8 = 0; omega)
    rw [h1, tile_apply V c ⟨8 * b.val + 0, h⟩ b ⟨0, hl⟩ rfl, clearedRow_apply, zero_add]
    rfl
  | l + 1, hl, h => by
    have h1 : acc0 V c (8 * b.val + (l + 1)) h
        = k0_pay2 (kblk V c ⟨8 * b.val + (l + 1), h⟩) (vblk V c ⟨8 * b.val + (l + 1), h⟩)
            (acc0 V c (8 * b.val + l) (Nat.lt_of_succ_lt h)) :=
      (acc0_next V c ⟨8 * b.val + (l + 1), h⟩ (by show ¬ (8 * b.val + (l + 1)) % 8 = 0; omega)).trans
        (congrArg (k0_pay2 _ _) (acc0_congr V c (show 8 * b.val + (l + 1) - 1 = 8 * b.val + l by omega) _ _))
    rw [h1, tile_apply V c ⟨8 * b.val + (l + 1), h⟩ b ⟨l + 1, hl⟩ rfl,
      acc0_apply c b j l (Nat.lt_of_succ_lt hl) (Nat.lt_of_succ_lt h)]
    rw [Cert.LinAttn.accK, dif_pos hl]

/-! ## From blocks to the array -/

/-- The result array the region leaves, as one function of the k and v arrays. -/
abbrev G0 (c : Dev nD) : S8x1x512.Idx → EReal :=
  fun i => Cert.LinAttn.kvK (arr3 (V c main_arg1)) (arr3 (V c main_arg2)) (i 0) (i 2)

/-- A point that writes the output row back writes its block of that array: the point is the last tile of its batch,
    and the kept row then holds the sum over all eight tiles. -/
theorem flushed0_2_eq (c : Dev nD) (t : Fin cfg0.N) (hf : (cfg0.win 2).flush t = true) :
    (dat0 (F := Ideal) V c).flushed 2 t = ((cfg0.win 2).blk t).view.read (Elt Ideal) (G0 V c) := by
  have h7 : t.val % 8 = 7 := (flush0_2 t).mp hf
  have hN : t.val < 64 := lt_of_lt_of_eq t.isLt (show cfg0.N = 64 from N_0)
  obtain ⟨-, -, -, -, -, -, e0, e1, e2⟩ := idx_facts0 t
  show (cfg0.win 2).cut (grid0.coords t) ((dat0 V c).after 2 t) = _
  rw [after0_2]
  funext y
  have hy0 : (y 0).val < 1 := (y 0).isLt
  have hy1 : (y 1).val < 1 := (y 1).isLt
  have hy2 : (y 2).val < 512 := (y 2).isLt
  have hb : t.val / 8 < 8 := by omega
  have ht : t.val = 8 * (⟨t.val / 8, hb⟩ : Fin 8).val + 7 := by show t.val = 8 * (t.val / 8) + 7; omega
  -- the block index the write-back reads the staged row at
  have hx : (cfg0.win 2).xinj (grid0.coords t) y = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  -- and where that element lies in the array
  have hi0 : (((cfg0.win 2).blk t).view.emb y 0 : Fin 8) = ⟨t.val / 8, hb⟩ := by
    apply Fin.ext
    show win0_2.index t (0 : Fin 3) * 1 + 1 * (y 0).val = t.val / 8; omega
  have hi2 : (((cfg0.win 2).blk t).view.emb y 2 : Fin 512) = ⟨(y 2).val, hy2⟩ := by
    apply Fin.ext
    show win0_2.index t (2 : Fin 3) * 512 + 1 * (y 2).val = (y 2).val; omega
  show k0_pay3 (acc0 V c t.val t.isLt) ((cfg0.win 2).xinj (grid0.coords t) y)
    = Cert.LinAttn.kvK (arr3 (V c main_arg1)) (arr3 (V c main_arg2)) (((cfg0.win 2).blk t).view.emb y 0) (((cfg0.win 2).blk t).view.emb y 2)
  rw [hx, hi0, hi2, pay3_apply,
    acc0_congr V c ht t.isLt (ht ▸ t.isLt),
    acc0_apply V c ⟨t.val / 8, hb⟩ ⟨(y 2).val, hy2⟩ 7 (by omega) (ht ▸ t.isLt)]
  rfl

/-- Entry (b, 0, c) of the result lies in the block point 8 b + 7 writes back. -/
theorem mem_blk0_2 (t : Fin cfg0.N) (b : Fin 8) (ht : t.val = 8 * b.val + 7) (cc : Fin 512) :
    ix3 b (0 : Fin 1) cc ∈ ((cfg0.win 2).blk t).view.set := by
  obtain ⟨-, -, -, -, -, -, e0, e1, e2⟩ := idx_facts0 t
  have hb := b.isLt
  have hc := cc.isLt
  show ix3 b (0 : Fin 1) cc ∈ ((View.whole main_v0).slice (win0_2.rect t)).set
  rw [View.set_slice_whole, Rect.mem_set_unit]
  intro a
  match a with
  | ⟨0, _⟩ => show win0_2.index t (0 : Fin 3) * 1 ≤ b.val ∧ b.val < win0_2.index t (0 : Fin 3) * 1 + 1; omega
  | ⟨1, _⟩ => show win0_2.index t (1 : Fin 3) * 1 ≤ 0 ∧ 0 < win0_2.index t (1 : Fin 3) * 1 + 1; omega
  | ⟨2, _⟩ => show win0_2.index t (2 : Fin 3) * 512 ≤ cc.val ∧ cc.val < win0_2.index t (2 : Fin 3) * 512 + 512; omega

/-- Entry (b, 0, c) of what the region leaves in its result array. -/
theorem arr0_final_apply (c : Dev nD) (b : Fin 8) (cc : Fin 512) :
    (dat0 (F := Ideal) V c).arrAt 2 cfg0.N (ix3 b (0 : Fin 1) cc)
      = Cert.LinAttn.kvK (arr3 (V c main_arg1)) (arr3 (V c main_arg2)) b cc := by
  have hN : cfg0.N = 64 := N_0
  have hb := b.isLt
  obtain ⟨t, ht⟩ : ∃ t : Fin cfg0.N, t.val = 8 * b.val + 7 := ⟨⟨8 * b.val + 7, by rw [hN]; omega⟩, rfl⟩
  have hf : (cfg0.win 2).flush t = true := (flush0_2 t).mpr (by omega)
  exact (dat0 (F := Ideal) V c).arrAt_apply_of_mem 2 (G0 V c) (fun t hf => flushed0_2_eq V c t hf)
    cfg0.N t (ix3 b (0 : Fin 1) cc) t.isLt hf (mem_blk0_2 t b ht cc)

end Cert.KernelIdeal.Hand

end
-- ==== Proof.ValK1.lean ====
/-
  The output region's result, at the exact instance, as a function of the arrays the region finds.

  Entry (b, l, o) of the region's result array is `outK` of the q array, the weight matrix (as re-typed by the host),
  the bias and the row of sequence sums the region finds: point 8 b + l / 1024 writes tile (b, l / 1024) of the result,
  each of its entries the body's term read at that entry — the row of q scaled to length one, times the sequence sums
  lane by lane, contracted against row o of the weight matrix (a product into the zero accumulator is that plain sum
  at this instance, and a change of float format is the identity), plus the bias; the 64 tiles cover the array.
-/
import proofs.«127834_j82111184765009_1_alg».proof.Proof.Data1
import proofs.«127834_j82111184765009_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- An 8 x 8192 x 512 array by its three coordinates. -/
abbrev arr3' (X : S8x8192x512.Idx → EReal) : Fin 8 → Fin 8192 → Fin 512 → EReal := fun b l c => X (ix3 b l c)

/-- A vector of row values cast to a column: [a] to [a, 1]. -/
theorem colCast1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over the lanes: [a, 1] to [a, b] reads, at (p, c), the column at p. -/
theorem colBcast1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of a 1024 x 512 tile, at row r. -/
theorem laneSum1_apply (v : FVec Ideal S1024x512 .f32) (h : S1024x512.Reduces [1] S1024) (hφ : FKind.Formats .f32)
    (hacc : (0x00000000#32 : BitVec 32) = 0x00000000#32) (r : Fin 1024) :
    multiReduction .add [1] S1024 v 0x00000000#32 h hφ hacc (ix1 r) = ∑ c : Fin 512, v (ix2 r c) := by
  refine (Ideal.multiReduction_add_single v _ h hφ hacc (ix1 r)).trans ?_
  refine Finset.sum_congr rfl fun c _ => congrArg v ?_
  funext a; apply Fin.ext
  match a with
  | ⟨0, _⟩ => rfl
  | ⟨1, _⟩ => rfl

/-! The product's operand indices: the left operand is read at (row, k), the right one at (column, k). -/

theorem prod1Lhs_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem prod1Lhs_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem prod1Rhs_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem prod1Rhs_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The product into the zero accumulator, at (r, o): the sum over k of the left operand at (r, k) times the right one at (o, k). -/
theorem prod1_apply (L : FVec Ideal S1024x512 .bf16) (R : FVec Ideal S512x512 .bf16) (r : Fin 1024) (o : Fin 512) :
    matmul dot_S1024x512_S512x512_S1024x512_1_1_0_0_n_n none L R (constant S1024x512 .f32 0x00000000#32) (ix2 r o)
      = ∑ k : Fin 512, L (ix2 r k) * R (ix2 o k) := by
  simp only [matmul]
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 r o) ((ValueIdx.contrEquiv1 dot_S1024x512_S512x512_S1024x512_1_1_0_0_n_n 512 rfl rfl).symm k) = ix2 r k := funext fun a => Fin.ext (by
    match a with
    | ⟨0, _⟩ => exact prod1Lhs_0 _ _
    | ⟨1, _⟩ => exact (prod1Lhs_1 _ _).trans hk)
  have er : dot_S1024x512_S512x512_S1024x512_1_1_0_0_n_n.rhsIdx (ix2 r o) ((ValueIdx.contrEquiv1 dot_S1024x512_S512x512_S1024x512_1_1_0_0_n_n 512 rfl rfl).symm k) = ix2 o k := funext fun a => Fin.ext (by
    match a with
    | ⟨0, _⟩ => exact prod1Rhs_0 _ _
    | ⟨1, _⟩ => exact (prod1Rhs_1 _ _).trans hk)
  rw [el, er]

/-- A square root taken entry by entry. -/
theorem sqrt1_apply {s : Shape} {φ : FTy} (a : FVec Ideal s φ) (i : s.Idx) : sqrt a i = Ideal.sqrt (a i) := rfl

/-- THE BODY'S TERM AT AN ENTRY. Row r of the q-tile scaled to length one, times the sequence sums lane by lane,
    contracted against row o of the weight matrix, plus the bias at o. -/
theorem pay1_apply (x0 : Vec Ideal S1x1024x512 .f32) (x1 : Vec Ideal S1x1x512 .f32) (x2 : Vec Ideal S512x512 .bf16) (x3 : Vec Ideal S512 .f32)
    (r : Fin 1024) (o : Fin 512) :
    k1_pay1 x0 x1 x2 x3 (ix3 (0 : Fin 1) r o)
      = (∑ c : Fin 512, (Ideal.div (x0 (ix3 (0 : Fin 1) r c)) (Ideal.sqrt (∑ c' : Fin 512, x0 (ix3 (0 : Fin 1) r c') * x0 (ix3 (0 : Fin 1) r c')))
            * x1 (ix3 (0 : Fin 1) (0 : Fin 1) c)) * x2 (ix2 o c)) + x3 (ix1 o) := by
  unfold k1_pay1
  rw [shapeCast_ab_1ab_apply, addf_apply, prod1_apply, broadcastTo_1b_ab_apply, shapeCast_a_1a_apply]
  refine congrArg (· + x3 (ix1 o)) (Finset.sum_congr rfl fun c _ => ?_)
  rw [truncf_apply, mulf_apply, divf_apply, shapeCast_1ab_ab_apply, colBcast1_apply, sqrt1_apply, colCast1_apply,
    laneSum1_apply, broadcastTo_1b_ab_apply, shapeCast_1ab_ab_apply, shapeCast_self]
  refine congrArg (fun s => Ideal.div (x0 (ix3 (0 : Fin 1) r c)) (Ideal.sqrt s) * x1 (ix3 (0 : Fin 1) (0 : Fin 1) c) * x2 (ix2 o c))
    (Finset.sum_congr rfl fun c' _ => ?_)
  rw [mulf_apply, shapeCast_1ab_ab_apply]

variable (V : (c : Dev nD) → (b : Ref sig .tc) → Buf (Elt Ideal) ((c : Thread nD τ).loc b))

/-! ## From the tiles to the array -/

/-- The index maps, decided over the grid: point t is batch t / 8 and row-tile t % 8; the q-tile and the result
    tile are block (t / 8, t % 8, 0), the sequence sums block (t / 8, 0, 0), the weight matrix and the bias block 0. -/
theorem point1_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 3) = t.val / 8 ∧ win1_4.index t (1 : Fin 3) = t.val % 8 ∧ win1_4.index t (2 : Fin 3) = 0 :=
  (by decide +kernel : ∀ t : Fin grid1.N, _)

theorem point1_lt (t : Fin cfg1.N) : t.val < 64 := lt_of_lt_of_eq t.isLt (show cfg1.N = 64 from N_1)

/-- The batch of point t. -/
def ptB1 (t : Fin cfg1.N) : Fin 8 := ⟨t.val / 8, by have := point1_lt t; omega⟩
/-- The row-tile of point t. -/
def ptJ1 (t : Fin cfg1.N) : Fin 8 := ⟨t.val % 8, by omega⟩

/-- Row r of point t's q-tile is row (batch, 1024 * tile + r) of q. -/
theorem qblk1_apply (c : Dev nD) (t : Fin cfg1.N) (r : Fin 1024) (k : Fin 512) :
    iblk1 V c 0 t (ix3 (0 : Fin 1) r k) = V c main_arg0 (ix3 (ptB1 t) (Cert.LinAttn.row (ptJ1 t) r) k) := by
  obtain ⟨e0, e1, e2, -⟩ := point1_facts t
  show V c main_arg0 (((cfg1.win 0).blk t).view.emb (ix3 (0 : Fin 1) r k)) = _
  refine congrArg (V c main_arg0) (funext fun a => Fin.ext ?_)
  match a with
  | ⟨0, _⟩ => show win1_0.index t (0 : Fin 3) * 1 + 1 * 0 = t.val / 8; omega
  | ⟨1, _⟩ => show win1_0.index t (1 : Fin 3) * 1024 + 1 * r.val = 1024 * (t.val % 8) + r.val; omega
  | ⟨2, _⟩ => show win1_0.index t (2 : Fin 3) * 512 + 1 * k.val = k.val; omega

/-- Point t's row of sequence sums is the batch's. -/
theorem sblk1_apply (c : Dev nD) (t : Fin cfg1.N) (k : Fin 512) :
    iblk1 V c 1 t (ix3 (0 : Fin 1) (0 : Fin 1) k) = V c main_v0 (ix3 (ptB1 t) (0 : Fin 1) k) := by
  obtain ⟨-, -, -, e0, e1, e2, -⟩ := point1_facts t
  show V c main_v0 (((cfg1.win 1).blk t).view.emb (ix3 (0 : Fin 1) (0 : Fin 1) k)) = _
  refine congrArg (V c main_v0) (funext fun a => Fin.ext ?_)
  match a with
  | ⟨0, _⟩ => show win1_1.index t (0 : Fin 3) * 1 + 1 * 0 = t.val / 8; omega
  | ⟨1, _⟩ => show win1_1.index t (1 : Fin 3) * 1 + 1 * 0 = 0; omega
  | ⟨2, _⟩ => show win1_1.index t (2 : Fin 3) * 512 + 1 * k.val = k.val; omega

/-- The weight matrix is its array at every point. -/
theorem wblk1_apply (c : Dev nD) (t : Fin cfg1.N) (o k : Fin 512) :
    iblk1 V c 2 t (ix2 o k) = V c main_v1 (ix2 o k) := by
  obtain ⟨-, -, -, -, -, -, e0, e1, -⟩ := point1_facts t
  show V c main_v1 (((cfg1.win 2).blk t).view.emb (ix2 o k)) = _
  refine congrArg (V c main_v1) (funext fun a => Fin.ext ?_)
  match a with
  | ⟨0, _⟩ => show win1_2.index t (0 : Fin 2) * 512 + 1 * o.val = o.val; omega
  | ⟨1, _⟩ => show win1_2.index t (1 : Fin 2) * 512 + 1 * k.val = k.val; omega

/-- The bias is its array at every point. -/
theorem bblk1_apply (c : Dev nD) (t : Fin cfg1.N) (o : Fin 512) :
    iblk1 V c 3 t (ix1 o) = V c main_arg4 (ix1 o) := by
  obtain ⟨-, -, -, -, -, -, -, -, e0, -⟩ := point1_facts t
  show V c main_arg4 (((cfg1.win 3).blk t).view.emb (ix1 o)) = _
  refine congrArg (V c main_arg4) (funext fun a => Fin.ext ?_)
  match a with
  | ⟨0, _⟩ => show win1_3.index t (0 : Fin 1) * 512 + 1 * o.val = o.val; omega

/-- Row r of point t's result tile sits at row (batch, 1024 * tile + r) of the result array. -/
theorem oblk1_emb (t : Fin cfg1.N) (r : Fin 1024) (o : Fin 512) :
    ((cfg1.win 4).blk t).view.emb (ix3 (0 : Fin 1) r o) = (ix3 (ptB1 t) (Cert.LinAttn.row (ptJ1 t) r) o : S8x8192x512.Idx) := by
  obtain ⟨-, -, -, -, -, -, -, -, -, e0, e1, e2⟩ := point1_facts t
  refine funext fun a => Fin.ext ?_
  match a with
  | ⟨0, _⟩ => show win1_4.index t (0 : Fin 3) * 1 + 1 * 0 = t.val / 8; omega
  | ⟨1, _⟩ => show win1_4.index t (1 : Fin 3) * 1024 + 1 * r.val = 1024 * (t.val % 8) + r.val; omega
  | ⟨2, _⟩ => show win1_4.index t (2 : Fin 3) * 512 + 1 * o.val = o.val; omega

/-- The result array as one function of the arrays the region finds. -/
def outArr1 (c : Dev nD) : S8x8192x512.Idx → EReal := fun i =>
  Cert.LinAttn.outK (arr3' (V c main_arg0)) (fun o' c' => V c main_v1 (ix2 o' c')) (fun o' => V c main_arg4 (ix1 o'))
    (fun b' c' => V c main_v0 (ix3 b' (0 : Fin 1) c')) (i 0) (i 1) (i 2)

/-- WHAT POINT t WRITES BACK is its tile of that function. -/
theorem tile1_eq (c : Dev nD) (t : Fin cfg1.N) :
    (dat1 (F := Ideal) V c).flushed 4 t = ((cfg1.win 4).blk t).view.read (Elt Ideal) (outArr1 V c) := by
  show (cfg1.win 4).cut (grid1.coords t) ((dat1 V c).after 4 t) = _
  rw [after1_4]
  funext j
  obtain ⟨r, o, rfl⟩ : ∃ (r : Fin 1024) (o : Fin 512), j = ix3 (0 : Fin 1) r o :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  show k1_pay1 (iblk1 V c 0 t) (iblk1 V c 1 t) (iblk1 V c 2 t) (iblk1 V c 3 t) (ix3 (0 : Fin 1) r o)
      = outArr1 V c (((cfg1.win 4).blk t).view.emb (ix3 (0 : Fin 1) r o))
  rw [pay1_apply, oblk1_emb]
  simp only [qblk1_apply, sblk1_apply, wblk1_apply, bblk1_apply]
  rfl

/-- An index of the result array is in point t's tile iff each coordinate is in the tile's range on its axis. -/
theorem mem_tile1 (t : Fin cfg1.N) (i : S8x8192x512.Idx) :
    i ∈ ((cfg1.win 4).blk t).view.set ↔ ∀ a : Fin 3, win1_4.index t a * S1x1024x512.size a ≤ (i a).val ∧ (i a).val < win1_4.index t a * S1x1024x512.size a + S1x1024x512.size a := by
  show i ∈ ((View.whole main_v2).slice (win1_4.rect t)).set ↔ _
  rw [View.set_slice_whole, Rect.mem_set_unit]
  exact Iff.rfl

/-- Entry (b, l, o) of what the region leaves in its result array. -/
theorem arr1_final_apply (c : Dev nD) (b : Fin 8) (l : Fin 8192) (o : Fin 512) :
    (dat1 (F := Ideal) V c).arrAt 4 cfg1.N (ix3 b l o)
      = Cert.LinAttn.outK (arr3' (V c main_arg0)) (fun o' c' => V c main_v1 (ix2 o' c')) (fun o' => V c main_arg4 (ix1 o'))
          (fun b' c' => V c main_v0 (ix3 b' (0 : Fin 1) c')) b l o := by
  have ht : 8 * b.val + l.val / 1024 < cfg1.N := by
    rw [show cfg1.N = 64 from N_1]; have := b.isLt; have := l.isLt; omega
  refine ((dat1 (F := Ideal) V c).arrAt_apply_of_mem 4 (outArr1 V c) (fun t _ => tile1_eq V c t) cfg1.N
    ⟨8 * b.val + l.val / 1024, ht⟩ (ix3 b l o) ht (flush1_4 _) ?_).trans rfl
  rw [mem_tile1]
  obtain ⟨-, -, -, -, -, -, -, -, -, e0, e1, e2⟩ := point1_facts ⟨8 * b.val + l.val / 1024, ht⟩
  have hb := b.isLt; have hl := l.isLt; have ho := o.isLt
  intro a
  match a with
  | ⟨0, _⟩ =>
    show win1_4.index ⟨8 * b.val + l.val / 1024, ht⟩ (0 : Fin 3) * 1 ≤ b.val ∧ b.val < win1_4.index ⟨8 * b.val + l.val / 1024, ht⟩ (0 : Fin 3) * 1 + 1
    rw [e0]; show (8 * b.val + l.val / 1024) / 8 * 1 ≤ b.val ∧ b.val < (8 * b.val + l.val / 1024) / 8 * 1 + 1; omega
  | ⟨1, _⟩ =>
    show win1_4.index ⟨8 * b.val + l.val / 1024, ht⟩ (1 : Fin 3) * 1024 ≤ l.val ∧ l.val < win1_4.index ⟨8 * b.val + l.val / 1024, ht⟩ (1 : Fin 3) * 1024 + 1024
    rw [e1]; show (8 * b.val + l.val / 1024) % 8 * 1024 ≤ l.val ∧ l.val < (8 * b.val + l.val / 1024) % 8 * 1024 + 1024; omega
  | ⟨2, _⟩ =>
    show win1_4.index ⟨8 * b.val + l.val / 1024, ht⟩ (2 : Fin 3) * 512 ≤ o.val ∧ o.val < win1_4.index ⟨8 * b.val + l.val / 1024, ht⟩ (2 : Fin 3) * 512 + 512
    rw [e2]; omega

end Cert.KernelIdeal.Hand

end
-- ==== Proof.RefVal.lean ====
/-
  The reference's result as a function of its arguments, entry by entry.

  Read one operation at a time, the reference's result at (b, l, o) is `outR`: the sequence sum in one go of the
  length-one rows of k times v, times the length-one row of q, contracted against row o of the weight matrix, plus
  the bias. Each host sum starts from the zero word, which is zero at this instance.
-/
import proofs.«127834_j82111184765009_1_alg».proof.Proof.Gen.ReferenceIdeal.Read
import proofs.«127834_j82111184765009_1_alg».proof.Proof.Spec
import Idealize.ShloMosaic.Lib.ValueIdx
import Idealize.ShloMosaic.PureOps.Ideal.Laws

set_option maxRecDepth 16384

noncomputable section

namespace Cert.ReferenceIdeal.RefVal

open Cert.ReferenceIdeal Cert.ReferenceIdeal.Gen
open Idealize.ShloMosaic Idealize.ShloMosaic.TcCoe Idealize.SL.Sem Idealize.ShloMosaic.ValueIdx

/-- An 8 x 8192 x 512 array by its three coordinates. -/
abbrev arr3 (X : (⟨S8x8192x512, .f32⟩ : BufTy).Contents (Elt Ideal)) : Fin 8 → Fin 8192 → Fin 512 → EReal := fun b l c => X (ix3 b l c)

/-! ## Where each stage reads its operand -/

/-- The squared length of row (b, l) sums that row's entries: the length is computed per row and spread back over
    the row, so from entry (b, l, c) the k-th summand sits at (b, l, k). -/
theorem row_sum_idx (b : Fin 8) (l : Fin 8192) (c k : Fin 512) :
    Read.idx_main_call0_v1 (Read.idx_main_call0_v2 (Read.idx_main_v1 (ix3 b l c))) k = ix3 b l k :=
  funext fun a => Fin.ext (by match a with | ⟨0, _⟩ => rfl | ⟨1, _⟩ => rfl | ⟨2, _⟩ => rfl)

/-- The sequence sum is taken per (b, c) and spread back over the sequence, so from entry (b, l, c) its k-th
    summand sits at (b, k, c). -/
theorem seq_sum_idx (b : Fin 8) (l k : Fin 8192) (c : Fin 512) :
    Read.idx_main_v7 (Read.idx_main_v8 (Read.idx_main_v9 (ix3 b l c))) k = ix3 b k c :=
  funext fun a => Fin.ext (by match a with | ⟨0, _⟩ => rfl | ⟨1, _⟩ => rfl | ⟨2, _⟩ => rfl)

/-- The contraction's left operand at (b, l, o), k-th term: entry (b, l, k). -/
theorem contr_left_idx (b : Fin 8) (l : Fin 8192) (o k : Fin 512) :
    Read.lidx_main_v11 (ix3 b l o) k = ix3 b l k :=
  funext fun a => Fin.ext (by match a with | ⟨0, _⟩ => rfl | ⟨1, _⟩ => rfl | ⟨2, _⟩ => rfl)

/-- The contraction's right operand at (b, l, o), k-th term: entry (o, k) of the weight matrix. -/
theorem contr_right_idx (b : Fin 8) (l : Fin 8192) (o k : Fin 512) :
    Read.ridx_main_v11 (ix3 b l o) k = ix2 o k :=
  funext fun a => Fin.ext (by match a with | ⟨0, _⟩ => rfl | ⟨1, _⟩ => rfl)

/-- The bias is spread over batch and sequence: entry (b, l, o) reads bias entry o. -/
theorem bias_idx (b : Fin 8) (l : Fin 8192) (o : Fin 512) :
    Read.idx_main_v12 (Read.idx_main_v13 (ix3 b l o)) = ix1 o :=
  funext fun a => Fin.ext (by match a with | ⟨0, _⟩ => rfl)

/-! ## The stages -/

/-- The two normalisations are the same operations on different arguments. -/
theorem unit_k_eq (x : (⟨S8x8192x512, .f32⟩ : BufTy).Contents (Elt Ideal)) :
    Read.val_main_v5 (F := Ideal) x = Read.val_main_v2 (F := Ideal) x := rfl

/-- Entry (b, l, c) of an argument divided by its rows' lengths is the length-one row's entry. -/
theorem unit_apply (x : (⟨S8x8192x512, .f32⟩ : BufTy).Contents (Elt Ideal)) (b : Fin 8) (l : Fin 8192) (c : Fin 512) :
    Read.val_main_v2 (F := Ideal) x (ix3 b l c) = Cert.LinAttn.unit (arr3 x) b l c := by
  rw [Read.val_main_v2_apply, Read.val_main_v1_apply, Read.val_main_v0_apply, Read.val_main_call0_v2_apply,
    Read.val_main_call0_v1_apply, Read.val_main_call0_cst_apply]
  simp only [Read.val_main_call0_v0_apply, row_sum_idx, Ideal.mulf_def, Ideal.hostDivf_def, Ideal.hostUnary_sqrt_def,
    Ideal.ofBits_def, Ideal.ofBits_zero_f32, zero_add]
  rfl

/-- The host's sum over the sequence, spread back over the sequence: its entry (b, l, c) is the sequence sum in one
    go at (b, c), whatever l. -/
theorem seq_sum_apply (x1 x2 : (⟨S8x8192x512, .f32⟩ : BufTy).Contents (Elt Ideal)) (b : Fin 8) (l : Fin 8192) (c : Fin 512) :
    Read.val_main_v9 (F := Ideal) x1 x2 (ix3 b l c) = Cert.LinAttn.kvR (arr3 x1) (arr3 x2) b c := by
  rw [Read.val_main_v9_apply, Read.val_main_v8_apply, Read.val_main_v7_apply, Read.val_main_cst_apply]
  simp only [Read.val_main_v6_apply, seq_sum_idx, unit_k_eq, unit_apply, Ideal.mulf_def, Ideal.ofBits_def,
    Ideal.ofBits_zero_f32, zero_add]
  rfl

/-- Entry (b, l, o) of the reference's result. -/
theorem ref_apply (x0 x1 x2 : (⟨S8x8192x512, .f32⟩ : BufTy).Contents (Elt Ideal)) (x3 : (⟨S512x512, .f32⟩ : BufTy).Contents (Elt Ideal))
    (x4 : (⟨S512, .f32⟩ : BufTy).Contents (Elt Ideal)) (b : Fin 8) (l : Fin 8192) (o : Fin 512) :
    Cert.ReferenceIdeal.Read.val_main_v14 (F := Ideal) x0 x1 x2 x3 x4 (ix3 b l o)
      = Cert.LinAttn.outR (arr3 x0) (arr3 x1) (arr3 x2) (fun o' c' => x3 (ix2 o' c')) (fun o' => x4 (ix1 o')) b l o := by
  rw [Read.val_main_v14_apply, Read.val_main_v11_apply, Read.val_main_v13_apply, Read.val_main_v12_apply]
  simp only [Read.val_main_v10_apply, contr_left_idx, contr_right_idx, bias_idx, seq_sum_apply, unit_apply,
    Ideal.mulf_def, Ideal.addf_def]
  rfl

end Cert.ReferenceIdeal.RefVal

end
-- ==== Proof.Bridge.lean ====
/-
  The two programs' results are one function of the arguments.

  The kernel's result is the output region's result array. That region finds q and the bias as launched, the weight
  matrix as the host re-typed it (no change at the exact instance), and the sequence sums as the first region left
  them: `kvK` of k and v as launched. So entry (b, l, o) of the kernel's result is `outK` at those, which is `outR`
  (the two arrangements are one function), which is entry (b, l, o) of the reference's result.
-/
import proofs.«127834_j82111184765009_1_alg».proof.Proof.Run
import proofs.«127834_j82111184765009_1_alg».proof.Proof.ValK0
import proofs.«127834_j82111184765009_1_alg».proof.Proof.ValK1
import proofs.«127834_j82111184765009_1_alg».proof.Proof.RefVal
import proofs.«127834_j82111184765009_1_alg».proof.Proof.Spec
import proofs.«127834_j82111184765009_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

/-! ## What the output region finds -/

/-- q and the bias are as launched. -/
theorem Vb_main_arg0 (c : Dev nD) : Vb m c main_arg0 = m ((c : Thread nD τ).loc main_arg0) :=
  (W2_of_not_written m c main_arg0 (by decide)).trans ((W1_of_ne m c main_arg0 (by decide)).trans rfl)
theorem Vb_main_arg4 (c : Dev nD) : Vb m c main_arg4 = m ((c : Thread nD τ).loc main_arg4) :=
  (W2_of_not_written m c main_arg4 (by decide)).trans ((W1_of_ne m c main_arg4 (by decide)).trans rfl)
/-- The sequence sums are what the first region left. -/
theorem Vb_main_v0 (c : Dev nD) : Vb m c main_v0 = (dat0 (Va m) c).arrAt 2 cfg0.N :=
  (W2_of_not_written m c main_v0 (by decide)).trans (W1_arr m c 2)
/-- The weight matrix is the launched one re-typed, entry by entry unchanged at the exact instance. -/
theorem Vb_main_v1_apply (c : Dev nD) (i : S512x512.Idx) : Vb m c main_v1 i = m ((c : Thread nD τ).loc main_arg3) i := by
  have e : (Vb m c main_v1 : (⟨S512x512, .bf16⟩ : BufTy).Contents (Elt Ideal))
      = ((truncf (F := Ideal) .bf16 · bitsLt_bf16_f32) : (⟨S512x512, .f32⟩ : BufTy).Contents (Elt Ideal) → (⟨S512x512, .bf16⟩ : BufTy).Contents (Elt Ideal))
          (W1 m c (Proc.devRef .tc main_arg3)) := by
    show StableHlo.after hostOps1 (W1 m c) (Proc.devRef .tc main_v1) = _
    after_results
  rw [e, W1_of_ne m c main_arg3 (by decide)]
  rfl

/-! ## The results agree -/

theorem result_eq (c : Dev nD) :
    (dat1 (F := Ideal) (Vb m) c).arrAt 4 cfg1.N
      = Cert.ReferenceIdeal.Read.val_main_v14 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨b, l, o, rfl⟩ : ∃ (b : Fin 8) (l : Fin 8192) (o : Fin 512), i = ix3 b l o := ⟨i 0, i 1, i 2, eq_ix3 i⟩
  rw [arr1_final_apply (Vb m) c b l o, Cert.ReferenceIdeal.RefVal.ref_apply, ← Cert.LinAttn.outK_kvK_eq_outR]
  unfold Cert.LinAttn.outK
  dsimp only
  rw [Vb_main_arg4 m c, Vb_main_arg0 m c, Vb_main_v0 m c]
  simp only [Vb_main_v1_apply m c, arr0_final_apply (Va m) c]

end Cert.KernelIdeal.Hand

end
-- ==== Proof.lean ====
/-
  Cosine-similarity linear attention: a two-pass Pallas kernel against its jnp reference, equal over the extended reals.

  The kernel first sums, per batch, the sequence of products (k scaled row by row to Euclidean length one) · v, tile by
  tile of 1024 rows into a kept row (a first region of 8 x 8 grid points), then for every tile of q scales each row to
  length one, multiplies lane by lane by that sum, contracts against the weight matrix's second axis and adds the bias
  (a second region of 8 x 8 points). The reference does the same with the sequence summed in one go and the product
  taken in the other order. Nothing but commutativity of the product and regrouping of a sum separates the two, so no
  finiteness of the inputs is used; a change of float format and a matrix product into a zero accumulator are, at the
  exact instance, the identity and the plain sum.

  Frames: both kernel programs run the same text, so one launch argument (generic in the float instance) gives the
  word-level frame and the exact one; the reference's frame is its run with the result dropped. The ideal pass
  rewrote nothing, so there is nothing to preserve. The value claim names the kernel's result (what the second
  region's write-backs leave) and shows it is the reference's result entry by entry.
-/
import proofs.«127834_j82111184765009_1_alg».proof.Defs
import proofs.«127834_j82111184765009_1_alg».proof.Proof.Gen.Kernel
import proofs.«127834_j82111184765009_1_alg».proof.Proof.Gen.KernelIdeal
import proofs.«127834_j82111184765009_1_alg».proof.Proof.Gen.ReferenceIdeal
import proofs.«127834_j82111184765009_1_alg».proof.Proof.Gen.Pre_finite_inputs
import proofs.«127834_j82111184765009_1_alg».proof.Proof.Gen.ReferenceIdeal.Run
import proofs.«127834_j82111184765009_1_alg».proof.Proof.Gen.ReferenceIdeal.Read
import proofs.«127834_j82111184765009_1_alg».proof.Proof.WordRun
import proofs.«127834_j82111184765009_1_alg».proof.Proof.Run
import proofs.«127834_j82111184765009_1_alg».proof.Proof.Bridge
import Idealize.ShloMosaic.Adequacy
import Idealize.ShloMosaic.Init

noncomputable section

namespace Cert.Proof

open Idealize.ShloMosaic Idealize.SL.Sem

/-- The word-level kernel runs to the end, faults nowhere and leaves its arguments as launched. -/
theorem frame_Kernel : Cert.frame_Kernel := fun m ρ _ => Cert.Kernel.Hand.frame (F := Bits) m ρ

/-- So does the kernel read at the exact instance. -/
theorem frame_KernelIdeal : Cert.frame_KernelIdeal := fun m ρ _ => Cert.KernelIdeal.Hand.frame (F := Ideal) m ρ

/-- The reference is host operations only: its frame is its run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result array: the kernel's is what its
    second region's write-backs leave, the reference's its composed term, and the two are one function of the arguments. -/
theorem algebraic : Cert.algebraic_KernelIdeal_ReferenceIdeal := by
  intro m ρ m' ρ' _ hagree
  refine ⟨fun c => (Cert.KernelIdeal.Hand.dat1 (F := Ideal) (Cert.KernelIdeal.Hand.Vb m) c).arrAt 4 Cert.KernelIdeal.cfg1.N,
    Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2.1,
    (hagree c).2.2.2.2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
